-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 66
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S1x64, .f32⟩
  | .hbm, ⟨65, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S64_S1x64 : S64.ShapeCasts S1x64
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RefChain.lean ====
/-
  The message-passing chain both programs share, as one function.

  Between the first dense stage and the second both programs do the same thing to the 100000 × 128 feature array h:
  gather its rows at the edges' sources (self loops appended, negative indices wrapped), scale each gathered row by
  the edge's normalisation, and scatter-add the rows at the edges' destinations into an all-zero 100000 × 128 array.
  Sources, destinations and normalisation are functions of the edge list alone. `agg e h` names the whole chain; it
  is never opened: the two programs agree on it as soon as they agree on h.
-/
import proofs.«149615_j70428873720344_1_alg».proof.Proof.RefRead

noncomputable section

namespace Cert.ReferenceIdeal.Chain

open Cert.ReferenceIdeal Cert.ReferenceIdeal.ReadP Idealize.ShloMosaic Idealize.ShloMosaic.TcCoe

variable {F : FTy → Type} [FloatOps F]

/-- Aggregation of the node features `h` along the edges `e` (with self loops), each message scaled by its edge's
    normalisation: the reference's operations %31 … %43 applied to `h` in place of %30. -/
def agg (e : (⟨S2x1600000, .i32⟩ : BufTy).Contents (Elt F)) (h : (⟨S100000x128, .f32⟩ : BufTy).Contents (Elt F)) :
    (⟨S100000x128, .f32⟩ : BufTy).Contents (Elt F) :=
  Host.scatterAdd scatter_S100000x128_S1700000x1_S1700000x128_1_0_0_1 (val_main_v41 (F := F)) (val_main_v42 (F := F) e)
    (mulf (Host.gather gather_S100000x128_S1700000x1_S1700000x128_1_0_n_n_0_1_1128 h (val_main_v36 (F := F) e))
      (val_main_v39 (F := F) e))

/-- The reference's aggregated features are `agg` of its first product. -/
theorem val_main_v43_eq (x0 : (⟨S100000x256, .f32⟩ : BufTy).Contents (Elt F)) (x1 : (⟨S2x1600000, .i32⟩ : BufTy).Contents (Elt F))
    (x2 : (⟨S256x128, .f32⟩ : BufTy).Contents (Elt F)) :
    val_main_v43 (F := F) x0 x1 x2 = agg x1 (val_main_v30 (F := F) x0 x2) := rfl

end Cert.ReferenceIdeal.Chain

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Spec.lean ====
/-
  The two dense stages as whole-array functions over the extended reals.

  `matProd A B` is the product of an M × K array and a K × N array: entry (i, j) is the sum over q of
  A (i, q) · B (q, j). `affProd A b W d` adds the row b to every row of A, multiplies by W and adds the row d to every
  row of the product: entry (i, j) is the sum over q of (A (i, q) + b (0, q)) · W (q, j), plus d (0, j).

  Entry (i, j) of either depends on row i of A only. So if a block X of rows of A is given — X (i, q) = A (r + i, q) for
  a row offset r — the same function of X, read at (i, j), is the function of A read at (r + i, j): the block of the
  result is the result of the block (`matProd_rows`, `affProd_rows`). No law of the extended reals is used.
  `rowOf v` reads a length-K array as the 1 × K row both programs add: entry (0, q) is v (q).
-/
import proofs.«149615_j70428873720344_1_alg».proof.Proof.LibDotPlain
import Idealize.ShloMosaic.Lib.ValueIdx
import Idealize.ShloMosaic.PureOps.Ideal.Laws

noncomputable section

open scoped BigOperators

namespace Cert.Spec

open Idealize.ShloMosaic Idealize.ShloMosaic.ValueIdx

variable {M M' K N : Nat}

/-- The product of an M × K array and a K × N array. -/
def matProd (A : FVec Ideal ⟨2, ![M, K]⟩ .f32) (B : FVec Ideal ⟨2, ![K, N]⟩ .f32) : FVec Ideal ⟨2, ![M, N]⟩ .f32 :=
  fun e => ∑ q : Fin K, A (ix2 (e 0) q) * B (ix2 q (e 1))

/-- The row b added to every row of A, the product with W, the row d added to every row of that. -/
def affProd (A : FVec Ideal ⟨2, ![M, K]⟩ .f32) (b : FVec Ideal ⟨2, ![1, K]⟩ .f32) (W : FVec Ideal ⟨2, ![K, N]⟩ .f32)
    (d : FVec Ideal ⟨2, ![1, N]⟩ .f32) : FVec Ideal ⟨2, ![M, N]⟩ .f32 :=
  fun e => (∑ q : Fin K, (A (ix2 (e 0) q) + b (ix2 (0 : Fin 1) q)) * W (ix2 q (e 1))) + d (ix2 (0 : Fin 1) (e 1))

/-- A length-K array as a 1 × K row. -/
def rowOf (v : FVec Ideal ⟨1, ![K]⟩ .f32) : FVec Ideal ⟨2, ![1, K]⟩ .f32 := fun e => v (ix1 (e 1))

theorem rowOf_apply (v : FVec Ideal ⟨1, ![K]⟩ .f32) (z : Fin 1) (q : Fin K) : rowOf v (ix2 z q) = v (ix1 q) := rfl

theorem matProd_apply (A : FVec Ideal ⟨2, ![M, K]⟩ .f32) (B : FVec Ideal ⟨2, ![K, N]⟩ .f32) (i : Fin M) (j : Fin N) :
    matProd A B (ix2 i j) = ∑ q : Fin K, A (ix2 i q) * B (ix2 q j) := rfl

theorem affProd_apply (A : FVec Ideal ⟨2, ![M, K]⟩ .f32) (b : FVec Ideal ⟨2, ![1, K]⟩ .f32) (W : FVec Ideal ⟨2, ![K, N]⟩ .f32)
    (d : FVec Ideal ⟨2, ![1, N]⟩ .f32) (i : Fin M) (j : Fin N) :
    affProd A b W d (ix2 i j) = (∑ q : Fin K, (A (ix2 i q) + b (ix2 (0 : Fin 1) q)) * W (ix2 q j)) + d (ix2 (0 : Fin 1) j) := rfl

/-- A block of rows of A gives the same rows of the product: if X (i, q) = A (ρ i, q) for a map ρ of row numbers, then
    the product of X at (i, j) is the product of A at (ρ i, j). -/
theorem matProd_rows (A : FVec Ideal ⟨2, ![M, K]⟩ .f32) (X : FVec Ideal ⟨2, ![M', K]⟩ .f32) (B : FVec Ideal ⟨2, ![K, N]⟩ .f32)
    (ρ : Fin M' → Fin M) (hX : ∀ i q, X (ix2 i q) = A (ix2 (ρ i) q)) (i : Fin M') (j : Fin N) :
    matProd X B (ix2 i j) = matProd A B (ix2 (ρ i) j) := by
  rw [matProd_apply, matProd_apply]
  exact Finset.sum_congr rfl fun q _ => by rw [hX i q]

/-- The same for the product with the two rows added. -/
theorem affProd_rows (A : FVec Ideal ⟨2, ![M, K]⟩ .f32) (X : FVec Ideal ⟨2, ![M', K]⟩ .f32) (b : FVec Ideal ⟨2, ![1, K]⟩ .f32)
    (W : FVec Ideal ⟨2, ![K, N]⟩ .f32) (d : FVec Ideal ⟨2, ![1, N]⟩ .f32)
    (ρ : Fin M' → Fin M) (hX : ∀ i q, X (ix2 i q) = A (ix2 (ρ i) q)) (i : Fin M') (j : Fin N) :
    affProd X b W d (ix2 i j) = affProd A b W d (ix2 (ρ i) j) := by
  rw [affProd_apply, affProd_apply]
  exact congrArg (· + d (ix2 (0 : Fin 1) j)) (Finset.sum_congr rfl fun q _ => by rw [hX i q])

/-- The host's product of an M × K and a K × N array is `matProd`. -/
theorem dotGeneral_eq_matProd (prec : Option ContractPrecision) (sched : HostSchedule)
    (A : FVec Ideal ⟨2, ![M, K]⟩ .f32) (B : FVec Ideal ⟨2, ![K, N]⟩ .f32) :
    FloatOps.dotGeneral (DotDims.plain M K N) prec sched A B = matProd A B := by
  funext e
  obtain ⟨i, j, rfl⟩ : ∃ (i : Fin M) (j : Fin N), e = ix2 i j := ⟨e 0, e 1, eq_ix2 e⟩
  exact Cert.LibDotPlain.dotGeneral_plain M K N prec sched A B i j

/-- The kernel's product into the all-zero array is `matProd`, whatever formats the two factors are narrowed to. -/
theorem matmul_zero_eq_matProd (prec : Option ContractPrecision)
    (A : FVec Ideal ⟨2, ![M, K]⟩ .f32) (B : FVec Ideal ⟨2, ![K, N]⟩ .f32)
    (A' : FVec Ideal ⟨2, ![M, K]⟩ .bf16) (B' : FVec Ideal ⟨2, ![K, N]⟩ .bf16)
    (hA : ∀ e, A' e = A e) (hB : ∀ e, B' e = B e) :
    FloatOps.matmul (DotDims.plain M K N) prec A' B' (constant ⟨2, ![M, N]⟩ .f32 0x00000000#32) = matProd A B := by
  funext e
  obtain ⟨i, j, rfl⟩ : ∃ (i : Fin M) (j : Fin N), e = ix2 i j := ⟨e 0, e 1, eq_ix2 e⟩
  rw [Cert.LibDotPlain.matmul_zero_plain M K N prec A' B' i j, matProd_apply]
  exact Finset.sum_congr rfl fun q _ => by rw [hA, hB]

end Cert.Spec

end
-- ==== Proof.RefValue.lean ====
/-
  The reference's result as the affine product of the aggregated first product.

  The reference computes h = x · W₁ on the host, aggregates it along the edges (`Chain.agg`), adds the bias b₁
  broadcast along the rows, multiplies by W₂ on the host and adds the bias b₂ broadcast along the rows. The host's
  product of an M × K and a K × N array is the plain sum of products, and a length-K array broadcast to 1 × K and then
  along the rows is, at entry (i, q), its entry q: so the result at (i, j) is the sum over q of
  (agg (i, q) + b₁ (q)) · W₂ (q, j), plus b₂ (j) — `Spec.affProd` of the aggregated `Spec.matProd`, with the two biases
  read as rows.
-/
import proofs.«149615_j70428873720344_1_alg».proof.Proof.RefChain
import proofs.«149615_j70428873720344_1_alg».proof.Proof.Spec

noncomputable section

open scoped BigOperators

namespace Cert.ReferenceIdeal.RefValue

open Cert.ReferenceIdeal Cert.ReferenceIdeal.ReadP Idealize.ShloMosaic Idealize.ShloMosaic.TcCoe Idealize.ShloMosaic.ValueIdx

/-- The first host product's printed dimension numbers are the plain ones for 100000 × 256 by 256 × 128. -/
theorem dims0 : dot_S100000x256_S256x128_S100000x128_1_0_0_1_n_n = DotDims.plain 100000 256 128 := rfl

/-- The second host product's printed dimension numbers are the plain ones for 100000 × 128 by 128 × 64. -/
theorem dims1 : dot_S100000x128_S128x64_S100000x64_1_0_0_1_n_n = DotDims.plain 100000 128 64 := rfl

/-- The reference's first product is `matProd`. -/
theorem val_main_v30_eq (x0 : (⟨S100000x256, .f32⟩ : BufTy).Contents (Elt Ideal)) (x2 : (⟨S256x128, .f32⟩ : BufTy).Contents (Elt Ideal)) :
    val_main_v30 (F := Ideal) x0 x2 = Cert.Spec.matProd (M := 100000) (K := 256) (N := 128) x0 x2 := by
  unfold val_main_v30
  simp only [Host.dotGeneral]
  rw [dims0]
  exact Cert.Spec.dotGeneral_eq_matProd none _ x0 x2

/-- The first bias broadcast to 1 × 128 and along the rows, at entry (i, q), is its entry q. -/
theorem bias1_apply (x3 : (⟨S128, .f32⟩ : BufTy).Contents (Elt Ideal)) (i : Fin 100000) (q : Fin 128) :
    val_main_v45 (F := Ideal) x3 (ix2 i q) = Cert.Spec.rowOf (K := 128) x3 (ix2 (0 : Fin 1) q) := by
  rw [val_main_v45_apply, val_main_v44_apply, Cert.Spec.rowOf_apply]
  exact congrArg x3 (funext fun a => Fin.ext (by match a with | ⟨0, _⟩ => rfl))

/-- The second bias broadcast to 1 × 64 and along the rows, at entry (i, j), is its entry j. -/
theorem bias2_apply (x5 : (⟨S64, .f32⟩ : BufTy).Contents (Elt Ideal)) (i : Fin 100000) (j : Fin 64) :
    val_main_v49 (F := Ideal) x5 (ix2 i j) = Cert.Spec.rowOf (K := 64) x5 (ix2 (0 : Fin 1) j) := by
  rw [val_main_v49_apply, val_main_v48_apply, Cert.Spec.rowOf_apply]
  exact congrArg x5 (funext fun a => Fin.ext (by match a with | ⟨0, _⟩ => rfl))

/-- The bias added along the rows, the host's product with W₂, the second bias added along the rows: the affine
    product, whatever the left factor `A` is. -/
theorem tail_eq (A : (⟨S100000x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    addf (φ := .f32) (Host.dotGeneral (φ₁ := .f32) (φ₂ := .f32) dot_S100000x128_S128x64_S100000x64_1_0_0_1_n_n none
          (addf (φ := .f32) A (val_main_v45 (F := Ideal) x3)) x4)
        (val_main_v49 (F := Ideal) x5)
      = Cert.Spec.affProd (M := 100000) (K := 128) (N := 64) A (Cert.Spec.rowOf (K := 128) x3) x4 (Cert.Spec.rowOf (K := 64) x5) := by
  funext e
  obtain ⟨i, j, rfl⟩ : ∃ (i : Fin 100000) (j : Fin 64), e = ix2 i j := ⟨e 0, e 1, eq_ix2 e⟩
  rw [addf_apply, bias2_apply, Cert.Spec.affProd_apply]
  refine congrArg (· + Cert.Spec.rowOf (K := 64) x5 (ix2 (0 : Fin 1) j)) ?_
  simp only [Host.dotGeneral]
  rw [dims1, Cert.LibDotPlain.dotGeneral_plain 100000 128 64 none _ _ x4 i j]
  refine Finset.sum_congr rfl fun q _ => ?_
  rw [addf_apply, bias1_apply]

/-- The reference's result: the affine product of the aggregated first product. -/
theorem result_eq (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v50 (F := Ideal) x0 x1 x2 x3 x4 x5
      = Cert.Spec.affProd (M := 100000) (K := 128) (N := 64)
          (Chain.agg (F := Ideal) x1 (Cert.Spec.matProd (M := 100000) (K := 256) (N := 128) x0 x2))
          (Cert.Spec.rowOf (K := 128) x3) x4 (Cert.Spec.rowOf (K := 64) x5) := by
  unfold val_main_v50 val_main_v47 val_main_v46
  rw [Chain.val_main_v43_eq, val_main_v30_eq]
  exact tail_eq _ x3 x4 x5

end Cert.ReferenceIdeal.RefValue

end
-- ==== Proof.Pay.lean ====
/-
  What each kernel body computes from the blocks it loads, as one function.

  The first body narrows its two loaded blocks to bf16 (the identity on extended reals), multiplies them into an all-zero
  accumulator and stores the product: the product of the two blocks. The second adds the loaded 1 × 128 row to every row
  of the loaded block, narrows, multiplies by the loaded 128 × 64 block into an all-zero accumulator and adds the loaded
  1 × 64 row to every row: the affine product of the block. The printed dimension numbers of both products are the plain
  ones (rows × contraction by contraction × columns), and the same-shape casts are the identity.
-/
import proofs.«149615_j70428873720344_1_alg».proof.Proof.Gen.KernelIdeal.Skeleton
import proofs.«149615_j70428873720344_1_alg».proof.Proof.Spec
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-- The first product's printed dimension numbers are the plain ones for 5000 × 256 by 256 × 128. -/
theorem dims0 : dot_S5000x256_S256x128_S5000x128_1_0_0_1_n_n = DotDims.plain 5000 256 128 := rfl

/-- The second product's printed dimension numbers are the plain ones for 5000 × 128 by 128 × 64. -/
theorem dims1 : dot_S5000x128_S128x64_S5000x64_1_0_0_1_n_n = DotDims.plain 5000 128 64 := rfl

/-- The first body stores the product of its two loaded blocks. -/
theorem pay0 (x : Vec Ideal S5000x256 .f32) (w : Vec Ideal S256x128 .f32) :
    k0_pay1 (F := Ideal) x w = Cert.Spec.matProd (M := 5000) (K := 256) (N := 128) x w := by
  unfold k0_pay1
  show FloatOps.matmul dot_S5000x256_S256x128_S5000x128_1_0_0_1_n_n none _ _ _ = _
  rw [dims0]
  exact Cert.Spec.matmul_zero_eq_matProd none x w _ _ (fun _ => rfl) (fun _ => rfl)

/-- The second body stores the affine product of its loaded block: the 1 × 128 row added, times the 128 × 64 block,
    the 1 × 64 row added. -/
theorem pay1 (a : Vec Ideal S5000x128 .f32) (b : Vec Ideal S1x128 .f32) (w : Vec Ideal S128x64 .f32) (d : Vec Ideal S1x64 .f32) :
    k1_pay1 (F := Ideal) a b w d = Cert.Spec.affProd (M := 5000) (K := 128) (N := 64) a b w d := by
  unfold k1_pay1
  funext e
  obtain ⟨i, j, rfl⟩ : ∃ (i : Fin 5000) (j : Fin 64), e = ix2 i j := ⟨e 0, e 1, eq_ix2 e⟩
  rw [shapeCast_self, shapeCast_self, shapeCast_self, Cert.Spec.affProd_apply, addf_apply,
    broadcastTo_1b_ab_apply d _ i j]
  refine congrArg (· + d (ix2 (0 : Fin 1) j)) ?_
  show FloatOps.matmul (F := Ideal) dot_S5000x128_S128x64_S5000x64_1_0_0_1_n_n none _ _ _ (ix2 i j) = _
  rw [dims1, Cert.LibDotPlain.matmul_zero_plain 5000 128 64 none _ _ i j]
  refine Finset.sum_congr rfl fun q _ => ?_
  show (a (ix2 i q) + broadcastTo S5000x128 b _ (ix2 i q)) * w (ix2 q j) = _
  rw [broadcastTo_1b_ab_apply b _ i q]

end Cert.KernelIdeal.Pay

end
-- ==== Proof.Region0.lean ====
/-
  What the first kernel region leaves in its output array, as one function of the arrays it finds.

  The region runs over 20 grid points. At point t it reads rows 5000 t … 5000 t + 4999 of the 100000 × 256 array
  (window 0), the whole 256 × 128 array (window 1), and writes rows 5000 t … 5000 t + 4999 of the 100000 × 128 output
  (window 2). The body stores the product of the two blocks it loaded, and a row of a product depends on the same row of
  the left factor only: so what point t writes back is block t of the product of the two whole arrays. The 20 blocks
  tile the output (row r lies in block r / 5000), so after the region the output array IS that product.
-/
import proofs.«149615_j70428873720344_1_alg».proof.Proof.Gen.KernelIdeal.Frame
import proofs.«149615_j70428873720344_1_alg».proof.Proof.Pay
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The left factor as the region finds it. -/
abbrev xarr (c : Dev nD) : Vec Ideal S100000x256 .f32 := V c main_arg0
/-- The right factor as the region finds it. -/
abbrev warr (c : Dev nD) : Vec Ideal S256x128 .f32 := V c main_arg2
/-- The block of the left factor loaded at point t. -/
abbrev xblk (c : Dev nD) (t : Fin cfg0.N) : Vec Ideal S5000x256 .f32 := iblk0 V c 0 t
/-- The block of the right factor loaded at point t. -/
abbrev wblk (c : Dev nD) (t : Fin cfg0.N) : Vec Ideal S256x128 .f32 := iblk0 V c 1 t

/-- The printed index maps over the grid: windows 0 and 2 are at block (t, 0), window 1 at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row i of block t is row 5000 t + i of the array. -/
def row (t : Fin cfg0.N) (i : Fin 5000) : Fin 100000 :=
  ⟨t.val * 5000 + i.val, by have := t.isLt; have h : cfg0.N = 20 := N_0; have := i.isLt; omega⟩

/-- The left block at point t holds rows 5000 t … of the left array. -/
theorem xblk_apply (c : Dev nD) (t : Fin cfg0.N) (i : Fin 5000) (q : Fin 256) :
    xblk V c t (ix2 i q) = xarr V c (ix2 (row t i) q) := by
  show V c main_arg0 (((cfg0.win 0).blk t).view.emb (ix2 i q)) = V c main_arg0 (ix2 (row t i) q)
  refine congrArg (V c main_arg0) (funext fun a => Fin.ext ?_)
  obtain ⟨e0, e1, -, -, -, -⟩ := idx_facts t
  match a with
  | ⟨0, _⟩ => show win0_0.index t (0 : Fin 2) * 5000 + 1 * i.val = t.val * 5000 + i.val; omega
  | ⟨1, _⟩ => show win0_0.index t (1 : Fin 2) * 256 + 1 * q.val = q.val; omega

/-- The right block at every point is the whole right array. -/
theorem wblk_eq (c : Dev nD) (t : Fin cfg0.N) : wblk V c t = warr V c := by
  funext y
  show V c main_arg2 (((cfg0.win 1).blk t).view.emb y) = V c main_arg2 y
  refine congrArg (V c main_arg2) (funext fun a => Fin.ext ?_)
  obtain ⟨-, -, e2, e3, -, -⟩ := idx_facts t
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- Entry (i, k) of output block t sits at (5000 t + i, k) of the output array. -/
theorem oblk_emb (t : Fin cfg0.N) (i : Fin 5000) (k : Fin 128) :
    ((cfg0.win 2).blk t).view.emb (ix2 i k) = (ix2 (row t i) k : S100000x128.Idx) := by
  funext a; apply Fin.ext
  obtain ⟨-, -, -, -, e4, e5⟩ := idx_facts t
  match a with
  | ⟨0, _⟩ => show win0_2.index t (0 : Fin 2) * 5000 + 1 * i.val = t.val * 5000 + i.val; omega
  | ⟨1, _⟩ => show win0_2.index t (1 : Fin 2) * 128 + 1 * k.val = k.val; omega

/-- What the region's output array ends holding: the product of the two arrays it finds. -/
abbrev G (c : Dev nD) : Vec Ideal S100000x128 .f32 :=
  Cert.Spec.matProd (M := 100000) (K := 256) (N := 128) (xarr V c) (warr V c)

/-- What point t writes back is block t of the product of the whole arrays. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  funext j
  obtain ⟨i, k, rfl⟩ : ∃ (i : Fin 5000) (k : Fin 128), j = ix2 i k := ⟨j 0, j 1, eq_ix2 j⟩
  show k0_pay1 (F := Ideal) (xblk V c t) (wblk V c t) (ix2 i k) = G V c (((cfg0.win 2).blk t).view.emb (ix2 i k))
  rw [Pay.pay0, oblk_emb, wblk_eq]
  exact Cert.Spec.matProd_rows (xarr V c) (xblk V c t) (warr V c) (row t) (xblk_apply V c t) i k

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in some point's block: row r in block r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its output array is the product of the two arrays it found. -/
theorem final (c : Dev nD) : (dat0 V c).arrAt 2 cfg0.N = G V c :=
  (dat0 V c).arrAt_eq_of_cover 2 (G V c) (fun t _ => flushed_eq V c t) cover

end Cert.KernelIdeal.Region0

end
-- ==== Proof.Region1.lean ====
/-
  What the second kernel region leaves in its output array, as one function of the arrays it finds.

  The region runs over 20 grid points. At point t it reads rows 5000 t … 5000 t + 4999 of the 100000 × 128 array
  (window 0) and, whole, the 1 × 128 row (window 1), the 128 × 64 array (window 2) and the 1 × 64 row (window 3); it
  writes rows 5000 t … 5000 t + 4999 of the 100000 × 64 output (window 4). The body stores the affine product of the
  block it loaded — the first row added to each of its rows, the product with the 128 × 64 array, the second row added
  to each row of that — and a row of the affine product depends on the same row of the left factor only: so what point t
  writes back is block t of the affine product of the whole arrays. The 20 blocks tile the output (row r lies in block
  r / 5000), so after the region the output array IS that affine product.
-/
import proofs.«149615_j70428873720344_1_alg».proof.Proof.Gen.KernelIdeal.Frame
import proofs.«149615_j70428873720344_1_alg».proof.Proof.Pay
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The left factor as the region finds it. -/
abbrev aarr (c : Dev nD) : Vec Ideal S100000x128 .f32 := V c main_v43
/-- The row added to the left factor's rows. -/
abbrev barr (c : Dev nD) : Vec Ideal S1x128 .f32 := V c main_v44
/-- The right factor. -/
abbrev warr (c : Dev nD) : Vec Ideal S128x64 .f32 := V c main_arg4
/-- The row added to the product's rows. -/
abbrev darr (c : Dev nD) : Vec Ideal S1x64 .f32 := V c main_v45
/-- The blocks loaded at point t. -/
abbrev ablk (c : Dev nD) (t : Fin cfg1.N) : Vec Ideal S5000x128 .f32 := iblk1 V c 0 t
abbrev bblk (c : Dev nD) (t : Fin cfg1.N) : Vec Ideal S1x128 .f32 := iblk1 V c 1 t
abbrev wblk (c : Dev nD) (t : Fin cfg1.N) : Vec Ideal S128x64 .f32 := iblk1 V c 2 t
abbrev dblk (c : Dev nD) (t : Fin cfg1.N) : Vec Ideal S1x64 .f32 := iblk1 V c 3 t

/-- The printed index maps over the grid: windows 0 and 4 are at block (t, 0), windows 1, 2 and 3 at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row i of block t is row 5000 t + i of the array. -/
def row (t : Fin cfg1.N) (i : Fin 5000) : Fin 100000 :=
  ⟨t.val * 5000 + i.val, by have := t.isLt; have h : cfg1.N = 20 := N_1; have := i.isLt; omega⟩

/-- The left block at point t holds rows 5000 t … of the left array. -/
theorem ablk_apply (c : Dev nD) (t : Fin cfg1.N) (i : Fin 5000) (q : Fin 128) :
    ablk V c t (ix2 i q) = aarr V c (ix2 (row t i) q) := by
  show V c main_v43 (((cfg1.win 0).blk t).view.emb (ix2 i q)) = V c main_v43 (ix2 (row t i) q)
  refine congrArg (V c main_v43) (funext fun a => Fin.ext ?_)
  obtain ⟨e0, e1, -⟩ := idx_facts t
  match a with
  | ⟨0, _⟩ => show win1_0.index t (0 : Fin 2) * 5000 + 1 * i.val = t.val * 5000 + i.val; omega
  | ⟨1, _⟩ => show win1_0.index t (1 : Fin 2) * 128 + 1 * q.val = q.val; omega

/-- The first row's block at every point is the whole row. -/
theorem bblk_eq (c : Dev nD) (t : Fin cfg1.N) : bblk V c t = barr V c := by
  funext y
  show V c main_v44 (((cfg1.win 1).blk t).view.emb y) = V c main_v44 y
  refine congrArg (V c main_v44) (funext fun a => Fin.ext ?_)
  obtain ⟨-, -, e2, e3, -⟩ := idx_facts t
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The right factor's block at every point is the whole array. -/
theorem wblk_eq (c : Dev nD) (t : Fin cfg1.N) : wblk V c t = warr V c := by
  funext y
  show V c main_arg4 (((cfg1.win 2).blk t).view.emb y) = V c main_arg4 y
  refine congrArg (V c main_arg4) (funext fun a => Fin.ext ?_)
  obtain ⟨-, -, -, -, e4, e5, -⟩ := idx_facts t
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- The second row's block at every point is the whole row. -/
theorem dblk_eq (c : Dev nD) (t : Fin cfg1.N) : dblk V c t = darr V c := by
  funext y
  show V c main_v45 (((cfg1.win 3).blk t).view.emb y) = V c main_v45 y
  refine congrArg (V c main_v45) (funext fun a => Fin.ext ?_)
  obtain ⟨-, -, -, -, -, -, e6, e7, -⟩ := idx_facts t
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Entry (i, k) of output block t sits at (5000 t + i, k) of the output array. -/
theorem oblk_emb (t : Fin cfg1.N) (i : Fin 5000) (k : Fin 64) :
    ((cfg1.win 4).blk t).view.emb (ix2 i k) = (ix2 (row t i) k : S100000x64.Idx) := by
  funext a; apply Fin.ext
  obtain ⟨-, -, -, -, -, -, -, -, e8, e9⟩ := idx_facts t
  match a with
  | ⟨0, _⟩ => show win1_4.index t (0 : Fin 2) * 5000 + 1 * i.val = t.val * 5000 + i.val; omega
  | ⟨1, _⟩ => show win1_4.index t (1 : Fin 2) * 64 + 1 * k.val = k.val; omega

/-- What the region's output array ends holding: the affine product of the arrays it finds. -/
abbrev G (c : Dev nD) : Vec Ideal S100000x64 .f32 :=
  Cert.Spec.affProd (M := 100000) (K := 128) (N := 64) (aarr V c) (barr V c) (warr V c) (darr V c)

/-- What point t writes back is block t of the affine product of the whole arrays. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz,
    View.ld_unit_zero (S := S128x64) hz, View.ld_unit_zero (S := S1x64) hz]
  funext j
  obtain ⟨i, k, rfl⟩ : ∃ (i : Fin 5000) (k : Fin 64), j = ix2 i k := ⟨j 0, j 1, eq_ix2 j⟩
  show k1_pay1 (F := Ideal) (ablk V c t) (bblk V c t) (wblk V c t) (dblk V c t) (ix2 i k)
    = G V c (((cfg1.win 4).blk t).view.emb (ix2 i k))
  rw [Pay.pay1, oblk_emb, bblk_eq, wblk_eq, dblk_eq]
  exact Cert.Spec.affProd_rows (aarr V c) (ablk V c t) (barr V c) (warr V c) (darr V c) (row t) (ablk_apply V c t) i k

/-- An index of the output array is in point t's block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v46).slice (win1_4.rect t)).set ↔ _
  rw [View.set_slice_whole, Rect.mem_set_unit]
  exact Iff.rfl

/-- Every index of the output array is in some point's block: row r in block r / 5000. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  let t : Fin cfg1.N := ⟨(i 0).val / 5000, by omega⟩
  obtain ⟨-, -, -, -, -, -, -, -, e8, e9⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- After the region its output array is the affine product of the arrays it found. -/
theorem final (c : Dev nD) : (dat1 V c).arrAt 4 cfg1.N = G V c :=
  (dat1 V c).arrAt_eq_of_cover 4 (G V c) (fun t _ => flushed_eq V c t) cover

end Cert.KernelIdeal.Region1

end
-- ==== Proof.KernelHost.lean ====
/-
  What the kernel program's host operations leave in the buffers the two kernel regions read.

  Before the first region the host operations compute, from the edge list alone, the sources and destinations with self
  loops appended and the per-edge normalisation; they write no argument array. Between the regions they gather the first
  region's output at the sources, scale by the normalisation and scatter-add at the destinations — the chain
  `Chain.agg` — and reshape the two biases to rows. The operations are, one for one, the reference's, so each buffer
  is the reference's stage of the same name, read at the kernel program's launch contents. The first region's arrays
  pass through its exit unchanged except its output.
-/
import proofs.«149615_j70428873720344_1_alg».proof.Proof.Gen.KernelIdeal.Frame
import proofs.«149615_j70428873720344_1_alg».proof.Proof.RefChain
import proofs.«149615_j70428873720344_1_alg».proof.Proof.Spec
import Idealize.ShloMosaic.Lib.StableHlo.Run
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

section AnyF

variable {F : FTy → Type} [FloatOps F]
variable (m : (ℓ : Loc nD τ sig) → Buf (Elt F) ℓ) (ρ : Dev nD → PrngReg)

/-! ## At the first region's entry -/

/-- The sources, self loops appended. -/
theorem src_eq (c : Dev nD) : W3 m ρ c (Proc.devRef .tc main_v3)
    = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  after_results
  rfl

/-- The destinations, self loops appended. -/
theorem dst_eq (c : Dev nD) : W3 m ρ c (Proc.devRef .tc main_v6)
    = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  after_results
  rfl

/-- The per-edge normalisation. -/
theorem nrm_eq (c : Dev nD) : W3 m ρ c (Proc.devRef .tc main_v29)
    = Cert.ReferenceIdeal.ReadP.val_main_v29 (F := F) (m ((c : Thread nD τ).loc main_arg1)) := by
  show StableHlo.after hostOps0_2 (StableHlo.after hostOps0_1 (StableHlo.after hostOps0 (W0 m ρ c))) (Proc.devRef .tc main_v29) = _
  after_results_simp
  rfl

/-- No host operation before the first region writes an argument array. -/
theorem arg0_eq (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp
theorem arg2_eq (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp
theorem arg3_eq (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp
theorem arg4_eq (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp
theorem arg5_eq (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

/-! ## At the second region's entry -/

/-- The aggregated features: the shared chain applied to the first region's output. -/
theorem agg_eq (c : Dev nD) : W5 m ρ c (Proc.devRef .tc main_v43)
    = Cert.ReferenceIdeal.Chain.agg (F := F) (m ((c : Thread nD τ).loc main_arg1)) (W4 m ρ c (Proc.devRef .tc main_v30)) := by
  show StableHlo.after hostOps1 (W4 m ρ c) (Proc.devRef .tc main_v43) = _
  after_results_simp
  rw [W4_of_ne m ρ c main_v3 (by decide), W4_of_ne m ρ c main_v6 (by decide), W4_of_ne m ρ c main_v29 (by decide),
    src_eq, dst_eq, nrm_eq]
  rfl

/-- The second product's right factor is the argument array, untouched. -/
theorem w2_eq (c : Dev nD) : W5 m ρ c (Proc.devRef .tc main_arg4) = m ((c : Thread nD τ).loc main_arg4) := by
  show StableHlo.after hostOps1 (W4 m ρ c) (Proc.devRef .tc main_arg4) = _
  after_results_simp
  rw [W4_of_ne m ρ c main_arg4 (by decide), arg4_eq]

end AnyF

/-! ## The biases as rows, at the ideal instance -/

variable (m : (ℓ : Loc nD τ sig) → Buf (Elt Ideal) ℓ) (ρ : Dev nD → PrngReg)

/-- The first bias reshaped to 1 × 128 is the bias read as a row. -/
theorem b1_eq (c : Dev nD) : W5 m ρ c (Proc.devRef .tc main_v44)
    = Cert.Spec.rowOf (K := 128) (m ((c : Thread nD τ).loc main_arg3)) := by
  show StableHlo.after hostOps1 (W4 m ρ c) (Proc.devRef .tc main_v44) = _
  after_results_simp
  rw [W4_of_ne m ρ c main_arg3 (by decide), arg3_eq]
  funext e
  obtain ⟨u, q, rfl⟩ : ∃ (u : Fin 1) (q : Fin 128), e = ix2 u q := ⟨e 0, e 1, eq_ix2 e⟩
  exact shapeCast_a_1a_apply _ _ u q

/-- The second bias reshaped to 1 × 64 is the bias read as a row. -/
theorem b2_eq (c : Dev nD) : W5 m ρ c (Proc.devRef .tc main_v45)
    = Cert.Spec.rowOf (K := 64) (m ((c : Thread nD τ).loc main_arg5)) := by
  show StableHlo.after hostOps1 (W4 m ρ c) (Proc.devRef .tc main_v45) = _
  after_results_simp
  rw [W4_of_ne m ρ c main_arg5 (by decide), arg5_eq]
  funext e
  obtain ⟨u, q, rfl⟩ : ∃ (u : Fin 1) (q : Fin 64), e = ix2 u q := ⟨e 0, e 1, eq_ix2 e⟩
  exact shapeCast_a_1a_apply _ _ u q

end Cert.KernelIdeal.Host

end
-- ==== Proof.KernelValue.lean ====
/-
  The kernel program's result, as one function of its six argument arrays.

  The program's run ends with its result array at what the second region's write-backs leave. The second region leaves
  the affine product of the arrays it finds (Region1), which the host operations between the regions made from the first
  region's output — aggregated along the edges — and the two biases read as rows (KernelHost); the first region leaves
  the product of x and W₁ (Region0), both untouched by the host operations before it. So the result is

      affProd (agg e (matProd x W₁)) (row b₁) W₂ (row b₂).
-/
import proofs.«149615_j70428873720344_1_alg».proof.Proof.RunValue
import proofs.«149615_j70428873720344_1_alg».proof.Proof.Region0
import proofs.«149615_j70428873720344_1_alg».proof.Proof.Region1
import proofs.«149615_j70428873720344_1_alg».proof.Proof.KernelHost

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result as a function of the launch contents of the six arguments, on core `c`. -/
abbrev result (c : Dev nD) : Vec Ideal S100000x64 .f32 :=
  Cert.Spec.affProd (M := 100000) (K := 128) (N := 64)
    (Cert.ReferenceIdeal.Chain.agg (F := Ideal) (m ((c : Thread nD τ).loc main_arg1))
      (Cert.Spec.matProd (M := 100000) (K := 256) (N := 128) (m ((c : Thread nD τ).loc main_arg0)) (m ((c : Thread nD τ).loc main_arg2))))
    (Cert.Spec.rowOf (K := 128) (m ((c : Thread nD τ).loc main_arg3)))
    (m ((c : Thread nD τ).loc main_arg4))
    (Cert.Spec.rowOf (K := 64) (m ((c : Thread nD τ).loc main_arg5)))

/-- At the first region's exit its output array is the product of x and W₁. -/
theorem out0_eq (c : Dev nD) : W4 m ρ c (Proc.devRef .tc main_v30)
    = Cert.Spec.matProd (M := 100000) (K := 256) (N := 128) (m ((c : Thread nD τ).loc main_arg0)) (m ((c : Thread nD τ).loc main_arg2)) := by
  refine (W4_arr m ρ c 2).trans ?_
  rw [Region0.final (V3 m ρ) c]
  show Cert.Spec.matProd (M := 100000) (K := 256) (N := 128) (W3 m ρ c (Proc.devRef .tc main_arg0)) (W3 m ρ c (Proc.devRef .tc main_arg2)) = _
  rw [Host.arg0_eq, Host.arg2_eq]

/-- At the second region's exit the result array is `result`. -/
theorem result_eq (c : Dev nD) : W6 m ρ c (Proc.devRef .tc main_v46) = result m c := by
  refine (W6_arr m ρ c 4).trans ?_
  rw [Region1.final (V5 m ρ) c]
  show Cert.Spec.affProd (M := 100000) (K := 128) (N := 64) (W5 m ρ c (Proc.devRef .tc main_v43)) (W5 m ρ c (Proc.devRef .tc main_v44))
    (W5 m ρ c (Proc.devRef .tc main_arg4)) (W5 m ρ c (Proc.devRef .tc main_v45)) = _
  rw [Host.agg_eq, Host.b1_eq, Host.w2_eq, Host.b2_eq, out0_eq]

/-- Every weakly fair execution of the kernel program terminates, nothing faulting, with the result array at `result`
    and the argument arrays as launched. -/
theorem run : θ_run defs (onTc (τ := τ) (main (F := Ideal))) ⟨m, fun _ => 0, ρ⟩ (fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.GenV.run_value m ρ)

end Cert.KernelIdeal.KValue

end
-- ==== Proof.lean ====
/-
  The kernel program against its reference, over the extended reals.

  Both programs are a one-layer graph convolution followed by a linear layer: h = x · W₁; the rows of h gathered at the
  edges' sources (self loops appended), scaled by the symmetric degree normalisation and scatter-added at the
  destinations; the bias b₁ added; the product with W₂; the bias b₂ added. The host operations that build the edge
  lists and the normalisation, and that gather and scatter, are the same in both programs, operation for operation. The
  kernel program computes the two dense stages in two kernel regions, each over 20 blocks of 5000 rows, narrowing its
  factors to bf16 before multiplying into an all-zero f32 accumulator, and fuses b₁ into the second: over the extended
  reals a narrowing is the identity and a product accumulated into zero is the plain sum of products, so each region
  leaves the same array as the reference's host product (and bias additions) leaves. No law of the extended reals beyond
  reading each operation at an index is used, and the precondition is not opened.

  The frames of the two kernel programs are the generated ones; the reference's frame is its run with the result
  dropped; no operation was rewritten by the idealization, so there is nothing to preserve.
-/
import proofs.«149615_j70428873720344_1_alg».proof.Defs
import proofs.«149615_j70428873720344_1_alg».proof.Proof.Gen.Kernel
import proofs.«149615_j70428873720344_1_alg».proof.Proof.Gen.Kernel.Skeleton
import proofs.«149615_j70428873720344_1_alg».proof.Proof.Gen.Kernel.Launch
import proofs.«149615_j70428873720344_1_alg».proof.Proof.Gen.Kernel.Points
import proofs.«149615_j70428873720344_1_alg».proof.Proof.Gen.Kernel.Frame
import proofs.«149615_j70428873720344_1_alg».proof.Proof.Gen.KernelIdeal
import proofs.«149615_j70428873720344_1_alg».proof.Proof.Gen.KernelIdeal.Skeleton
import proofs.«149615_j70428873720344_1_alg».proof.Proof.Gen.KernelIdeal.Launch
import proofs.«149615_j70428873720344_1_alg».proof.Proof.Gen.KernelIdeal.Points
import proofs.«149615_j70428873720344_1_alg».proof.Proof.Gen.KernelIdeal.Frame
import proofs.«149615_j70428873720344_1_alg».proof.Proof.Gen.ReferenceIdeal
import proofs.«149615_j70428873720344_1_alg».proof.Proof.Gen.Pre_finite_inputs
import proofs.«149615_j70428873720344_1_alg».proof.Proof.RefRun
import proofs.«149615_j70428873720344_1_alg».proof.Proof.RefRead
import proofs.«149615_j70428873720344_1_alg».proof.Proof.RefValue
import proofs.«149615_j70428873720344_1_alg».proof.Proof.KernelValue
import Idealize.ShloMosaic.Adequacy
import Idealize.ShloMosaic.Init

noncomputable section

namespace Cert.Proof

open Idealize.ShloMosaic Idealize.ShloMosaic.TcCoe Idealize.SL.Sem

/-- The two idealized programs, run from memories agreeing on the arguments, both end with the result array at the
    affine product of the aggregated product of x and W₁ (the kernel program's value run; the reference's run read
    stage by stage), and with their arguments unchanged. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v50_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
